-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x1x64 : Shape := ⟨4, ![4, 20000, 1, 64]⟩
abbrev S4x20000x16 : Shape := ⟨3, ![4, 20000, 16]⟩
abbrev S128x64 : Shape := ⟨2, ![128, 64]⟩
abbrev S128 : Shape := ⟨1, ![128]⟩
abbrev S_ : Shape := ⟨0, ![]⟩

class Facts : Prop where
  bcast_S_S4x20000x1x64 : S_.BroadcastsInDim S4x20000x1x64 (![] : Fin 0 → Fin S4x20000x1x64.rank)
  reducesTo_S4x20000x1x64_S_d0_1_2_3 : S4x20000x1x64.ReducesTo [0, 1, 2, 3] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x20000x1x64 .f32) (main_arg1 : IVec S4x20000x16 32) (main_arg2 : FVec F S128x64 .f32) (main_arg3 : FVec F S128 .f32) (main_arg4 : FVec F S128x64 .f32) (main_arg5 : FVec F S128 .f32) : IVec S_ 1 :=
  let main_v0 : FVec F S4x20000x1x64 .f32 := Host.absf main_arg0
  let main_cst : FVec F S_ .f32 := constant S_ .f32 0x7F800000#32
  let main_v1 : FVec F S4x20000x1x64 .f32 := broadcastInDim S4x20000x1x64 ![] bcast_S_S4x20000x1x64 main_cst
  let main_v2 : IVec S4x20000x1x64 1 := cmpf .olt main_v0 main_v1
  let main_c : IVec S_ 1 := constantI S_ 1 1#1
  let main_v3 : IVec S_ 1 := (fun x v => Host.reduce IntOp.andi x v reducesTo_S4x20000x1x64_S_d0_1_2_3 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S4x20000x1x64 : Shape := ⟨4, ![4, 20000, 1, 64]⟩
abbrev S4x20000x16 : Shape := ⟨3, ![4, 20000, 16]⟩
abbrev S128x64 : Shape := ⟨2, ![128, 64]⟩
abbrev S128 : Shape := ⟨1, ![128]⟩
abbrev S4x20000x64 : Shape := ⟨3, ![4, 20000, 64]⟩
abbrev S_ : Shape := ⟨0, ![]⟩
abbrev S4x20000x16x1 : Shape := ⟨4, ![4, 20000, 16, 1]⟩
abbrev S4x20000x16x64 : Shape := ⟨4, ![4, 20000, 16, 64]⟩
abbrev S64x128 : Shape := ⟨2, ![64, 128]⟩
abbrev S4x20000x128 : Shape := ⟨3, ![4, 20000, 128]⟩
abbrev S1x1000x16x64 : Shape := ⟨4, ![1, 1000, 16, 64]⟩
abbrev S1x1000x64 : Shape := ⟨3, ![1, 1000, 64]⟩
abbrev S1x1000x128 : Shape := ⟨3, ![1, 1000, 128]⟩
abbrev S1000x64 : Shape := ⟨2, ![1000, 64]⟩
abbrev S1000x16x64 : Shape := ⟨3, ![1000, 16, 64]⟩
abbrev S1000x1x64 : Shape := ⟨3, ![1000, 1, 64]⟩
abbrev S16000x64 : Shape := ⟨2, ![16000, 64]⟩
abbrev S16000x128 : Shape := ⟨2, ![16000, 128]⟩
abbrev S1x128 : Shape := ⟨2, ![1, 128]⟩
abbrev S1000x16x128 : Shape := ⟨3, ![1000, 16, 128]⟩
abbrev S1000x128 : Shape := ⟨2, ![1000, 128]⟩
abbrev S1000x1x128 : Shape := ⟨3, ![1000, 1, 128]⟩
abbrev S4x20000x1x128 : Shape := ⟨4, ![4, 20000, 1, 128]⟩

abbrev nBuf : Space → Nat
  | .hbm => 21
  | .vmem => 10
  | .smem => 0
  | _ => 0

abbrev bufTy : (tb : Table) → Fin (tcTables nBuf tb) → BufTy
  | .hbm, ⟨0, _⟩ => ⟨S4x20000x1x64, .f32⟩
  | .hbm, ⟨1, _⟩ => ⟨S4x20000x16, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S4x20000x64, .f32⟩
  | .hbm, ⟨7, _⟩ => ⟨S4x20000x64, .bf16⟩
  | .hbm, ⟨8, _⟩ => ⟨S_, .i32⟩
  | .hbm, ⟨9, _⟩ => ⟨S4x20000x16, .i32⟩
  | .hbm, ⟨10, _⟩ => ⟨S4x20000x16, .i1⟩
  | .hbm, ⟨11, _⟩ => ⟨S_, .i32⟩
  | .hbm, ⟨12, _⟩ => ⟨S4x20000x16, .i32⟩
  | .hbm, ⟨13, _⟩ => ⟨S4x20000x16, .i32⟩
  | .hbm, ⟨14, _⟩ => ⟨S4x20000x16, .i32⟩
  | .hbm, ⟨15, _⟩ => ⟨S4x20000x16x1, .i32⟩
  | .hbm, ⟨16, _⟩ => ⟨S4x20000x16x64, .bf16⟩
  | .hbm, ⟨17, _⟩ => ⟨S64x128, .f32⟩
  | .hbm, ⟨18, _⟩ => ⟨S64x128, .f32⟩
  | .hbm, ⟨19, _⟩ => ⟨S4x20000x128, .f32⟩
  | .hbm, ⟨20, _⟩ => ⟨S4x20000x1x128, .f32⟩
  | .local _ .vmem, ⟨0, _⟩ => ⟨S1x1000x16x64, .bf16⟩
  | .local _ .vmem, ⟨1, _⟩ => ⟨S1x1000x16x64, .bf16⟩
  | .local _ .vmem, ⟨2, _⟩ => ⟨S1x1000x64, .bf16⟩
  | .local _ .vmem, ⟨3, _⟩ => ⟨S1x1000x64, .bf16⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S128, .f32⟩
  | .local _ .vmem, ⟨8, _⟩ => ⟨S1x1000x128, .f32⟩
  | .local _ .vmem, ⟨9, _⟩ => ⟨S1x1000x128, .f32⟩
  | _, _ => ⟨S4x20000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 20], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x20000x1x64_S4x20000x64 : S4x20000x1x64.ShapeCasts S4x20000x64
  bitsLt_bf16_f32 : FTy.bits .bf16 < FTy.bits .f32
  bcast_S_S4x20000x16 : S_.BroadcastsInDim S4x20000x16 (![] : Fin 0 → Fin S4x20000x16.rank)
  bcast_S4x20000x16_S4x20000x16x1_0_1_2 : S4x20000x16.BroadcastsInDim S4x20000x16x1 (![0, 1, 2] : Fin 3 → Fin S4x20000x16x1.rank)
  transposes_S128x64_S64x128_1_0 : S128x64.Transposes [1, 0] S64x128
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  inb_S1x1000x16x64_S1x1000x16x64_0_0_0_0 : ∀ a, (![0, 0, 0, 0] : Fin 4 → Nat) a + S1x1000x16x64.size a ≤ S1x1000x16x64.size a
  h_S1x1000x16x64 : 0 < S1x1000x16x64.numel
  shapeCasts_S1x1000x16x64_S1000x16x64 : S1x1000x16x64.ShapeCasts S1000x16x64
  shapeCasts_S1000x64_S1000x1x64 : S1000x64.ShapeCasts S1000x1x64
  broadcasts_S1000x1x64_S1000x16x64 : S1000x1x64.Broadcasts S1000x16x64
  shapeCasts_S1000x16x64_S16000x64 : S1000x16x64.ShapeCasts S16000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S16000x128 : S1x128.Broadcasts S16000x128
  shapeCasts_S16000x128_S1000x16x128 : S16000x128.ShapeCasts S1000x16x128
  broadcasts_S1x128_S1000x128 : S1x128.Broadcasts S1000x128
  shapeCasts_S1000x128_S1000x1x128 : S1000x128.ShapeCasts S1000x1x128
  broadcasts_S1000x1x128_S1000x16x128 : S1000x1x128.Broadcasts S1000x16x128
  reduces_S1000x16x128_S1000x128 : S1000x16x128.Reduces [1] S1000x128
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  shapeCasts_S1000x128_S1x1000x128 : S1000x128.ShapeCasts S1x1000x128
  bcast_S4x20000x128_S4x20000x1x128_0_1_3 : S4x20000x128.BroadcastsInDim S4x20000x1x128 (![0, 1, 3] : Fin 3 → Fin S4x20000x1x128.rank)
  gather_S4x20000x64_S4x20000x16x1_S4x20000x16x64_3_1_0_0_1_3_1164_wf : GatherDims.WF S4x20000x64 S4x20000x16x1 S4x20000x16x64 [3] [1] [0] [1] [0] 3 ![1, 1, 64]
  dot_S16000x64_S64x128_S16000x128_1_0_0_1_n_n_wf : DotDims.WF S16000x64 S64x128 S16000x128 [1] [0] [0] [1] [] []
  dot_S1000x64_S64x128_S1000x128_1_0_0_1_n_n_wf : DotDims.WF S1000x64 S64x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x16x64.size a ≤ S4x20000x16x64.size a
  hwx0_0 : ∀ i : grid0.Coords, EltTy.bits .bf16 = 32 ∨ (Rect.block (s := S4x20000x16x64) S1x1000x16x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x64.size a ≤ S4x20000x64.size a
  hwx0_1 : ∀ i : grid0.Coords, EltTy.bits .bf16 = 32 ∨ (Rect.block (s := S4x20000x64) S1x1000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1000x128.size a ≤ S4x20000x128.size a
  hwx0_6 : ∀ i : grid0.Coords, EltTy.bits .f32 = 32 ∨ (Rect.block (s := S4x20000x128) S1x1000x128.size (cc0_transform_6 i) (hinb0_6 i)).WholeWords (EltTy.packing .f32)

variable [Facts₀]

def gather_S4x20000x64_S4x20000x16x1_S4x20000x16x64_3_1_0_0_1_3_1164 : GatherDims S4x20000x64 S4x20000x16x1 S4x20000x16x64 where
  offsetDims := [3]
  collapsedSliceDims := [1]
  operandBatchingDims := [0]
  startIndicesBatchingDims := [0]
  startIndexMap := [1]
  indexVectorDim := 3
  sliceSizes := ![1, 1, 64]
  wf := gather_S4x20000x64_S4x20000x16x1_S4x20000x16x64_3_1_0_0_1_3_1164_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf

abbrev win0_0 : Pipeline.Window sig grid0 :=
  Pipeline.Window.ofSpec (Memref.whole main_v8) S1x1000x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x20000x1x64 : Shape := ⟨4, ![4, 20000, 1, 64]⟩
abbrev S4x20000x16 : Shape := ⟨3, ![4, 20000, 16]⟩
abbrev S128x64 : Shape := ⟨2, ![128, 64]⟩
abbrev S128 : Shape := ⟨1, ![128]⟩
abbrev S4x20000x64 : Shape := ⟨3, ![4, 20000, 64]⟩
abbrev S_ : Shape := ⟨0, ![]⟩
abbrev S4x20000x16x1 : Shape := ⟨4, ![4, 20000, 16, 1]⟩
abbrev S4x20000x16x64 : Shape := ⟨4, ![4, 20000, 16, 64]⟩
abbrev S4x20000x16x128 : Shape := ⟨4, ![4, 20000, 16, 128]⟩
abbrev S1x1x1x128 : Shape := ⟨4, ![1, 1, 1, 128]⟩
abbrev S4x20000x128 : Shape := ⟨3, ![4, 20000, 128]⟩
abbrev S1x1x128 : Shape := ⟨3, ![1, 1, 128]⟩
abbrev S4x20000x1x128 : Shape := ⟨4, ![4, 20000, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x20000x1x64, .f32⟩
  | .hbm, ⟨1, _⟩ => ⟨S4x20000x16, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S4x20000x64, .f32⟩
  | .hbm, ⟨7, _⟩ => ⟨S_, .i32⟩
  | .hbm, ⟨8, _⟩ => ⟨S4x20000x16, .i32⟩
  | .hbm, ⟨9, _⟩ => ⟨S4x20000x16, .i1⟩
  | .hbm, ⟨10, _⟩ => ⟨S_, .i32⟩
  | .hbm, ⟨11, _⟩ => ⟨S4x20000x16, .i32⟩
  | .hbm, ⟨12, _⟩ => ⟨S4x20000x16, .i32⟩
  | .hbm, ⟨13, _⟩ => ⟨S4x20000x16, .i32⟩
  | .hbm, ⟨14, _⟩ => ⟨S4x20000x16x1, .i32⟩
  | .hbm, ⟨15, _⟩ => ⟨S4x20000x16x64, .f32⟩
  | .hbm, ⟨16, _⟩ => ⟨S4x20000x1x64, .f32⟩
  | .hbm, ⟨17, _⟩ => ⟨S4x20000x16x64, .f32⟩
  | .hbm, ⟨18, _⟩ => ⟨S4x20000x16x64, .f32⟩
  | .hbm, ⟨19, _⟩ => ⟨S4x20000x16x128, .f32⟩
  | .hbm, ⟨20, _⟩ => ⟨S1x1x1x128, .f32⟩
  | .hbm, ⟨21, _⟩ => ⟨S4x20000x16x128, .f32⟩
  | .hbm, ⟨22, _⟩ => ⟨S4x20000x16x128, .f32⟩
  | .hbm, ⟨23, _⟩ => ⟨S4x20000x128, .f32⟩
  | .hbm, ⟨24, _⟩ => ⟨S1x1x128, .f32⟩
  | .hbm, ⟨25, _⟩ => ⟨S4x20000x128, .f32⟩
  | .hbm, ⟨26, _⟩ => ⟨S4x20000x128, .f32⟩
  | .hbm, ⟨27, _⟩ => ⟨S4x20000x1x128, .f32⟩
  | .hbm, ⟨28, _⟩ => ⟨S4x20000x16x128, .f32⟩
  | .hbm, ⟨29, _⟩ => ⟨S4x20000x16x128, .f32⟩
  | .hbm, ⟨30, _⟩ => ⟨S_, .f32⟩
  | .hbm, ⟨31, _⟩ => ⟨S4x20000x16x128, .f32⟩
  | .hbm, ⟨32, _⟩ => ⟨S4x20000x16x128, .f32⟩
  | .hbm, ⟨33, _⟩ => ⟨S_, .f32⟩
  | .hbm, ⟨34, _⟩ => ⟨S4x20000x128, .f32⟩
  | .hbm, ⟨35, _⟩ => ⟨S4x20000x1x128, .f32⟩
  | _, _ => ⟨S4x20000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  shapeCasts_S4x20000x1x64_S4x20000x64 : S4x20000x1x64.ShapeCasts S4x20000x64
  bcast_S_S4x20000x16 : S_.BroadcastsInDim S4x20000x16 (![] : Fin 0 → Fin S4x20000x16.rank)
  bcast_S4x20000x16_S4x20000x16x1_0_1_2 : S4x20000x16.BroadcastsInDim S4x20000x16x1 (![0, 1, 2] : Fin 3 → Fin S4x20000x16x1.rank)
  bcast_S4x20000x64_S4x20000x1x64_0_1_3 : S4x20000x64.BroadcastsInDim S4x20000x1x64 (![0, 1, 3] : Fin 3 → Fin S4x20000x1x64.rank)
  bcast_S4x20000x1x64_S4x20000x16x64_0_1_2_3 : S4x20000x1x64.BroadcastsInDim S4x20000x16x64 (![0, 1, 2, 3] : Fin 4 → Fin S4x20000x16x64.rank)
  bcast_S128_S1x1x1x128_3 : S128.BroadcastsInDim S1x1x1x128 (![3] : Fin 1 → Fin S1x1x1x128.rank)
  bcast_S1x1x1x128_S4x20000x16x128_0_1_2_3 : S1x1x1x128.BroadcastsInDim S4x20000x16x128 (![0, 1, 2, 3] : Fin 4 → Fin S4x20000x16x128.rank)
  bcast_S128_S1x1x128_2 : S128.BroadcastsInDim S1x1x128 (![2] : Fin 1 → Fin S1x1x128.rank)
  bcast_S1x1x128_S4x20000x128_0_1_2 : S1x1x128.BroadcastsInDim S4x20000x128 (![0, 1, 2] : Fin 3 → Fin S4x20000x128.rank)
  bcast_S4x20000x128_S4x20000x1x128_0_1_3 : S4x20000x128.BroadcastsInDim S4x20000x1x128 (![0, 1, 3] : Fin 3 → Fin S4x20000x1x128.rank)
  bcast_S4x20000x1x128_S4x20000x16x128_0_1_2_3 : S4x20000x1x128.BroadcastsInDim S4x20000x16x128 (![0, 1, 2, 3] : Fin 4 → Fin S4x20000x16x128.rank)
  bcast_S_S4x20000x16x128 : S_.BroadcastsInDim S4x20000x16x128 (![] : Fin 0 → Fin S4x20000x16x128.rank)
  reducesTo_S4x20000x16x128_S4x20000x128_d2 : S4x20000x16x128.ReducesTo [2] S4x20000x128
  h_S_ : 0 < S_.numel
  gather_S4x20000x64_S4x20000x16x1_S4x20000x16x64_3_1_0_0_1_3_1164_wf : GatherDims.WF S4x20000x64 S4x20000x16x1 S4x20000x16x64 [3] [1] [0] [1] [0] 3 ![1, 1, 64]
  dot_S4x20000x16x64_S128x64_S4x20000x16x128_3_1_012_0_n_n_wf : DotDims.WF S4x20000x16x64 S128x64 S4x20000x16x128 [3] [1] [0, 1, 2] [0] [] []
  dot_S4x20000x64_S128x64_S4x20000x128_2_1_01_0_n_n_wf : DotDims.WF S4x20000x64 S128x64 S4x20000x128 [2] [1] [0, 1] [0] [] []

variable [Facts₀]

def gather_S4x20000x64_S4x20000x16x1_S4x20000x16x64_3_1_0_0_1_3_1164 : GatherDims S4x20000x64 S4x20000x16x1 S4x20000x16x64 where
  offsetDims := [3]
  collapsedSliceDims := [1]
  operandBatchingDims := [0]
  startIndicesBatchingDims := [0]
  startIndexMap := [1]
  indexVectorDim := 3
  sliceSizes := ![1, 1, 64]
  wf := gather_S4x20000x64_S4x20000x16x1_S4x20000x16x64_3_1_0_0_1_3_1164_wf
def dot_S4x20000x16x64_S128x64_S4x20000x16x128_3_1_012_0_n_n : DotDims S4x20000x16x64 S128x64 S4x20000x16x128 where
  lhsContracting := [3]
  rhsContracting := [1]
  lhsNonContracting := [0, 1, 2]
  rhsNonContracting := [0]
  lhsBatch := []
  rhsBatch := []
  wf := dot_S4x20000x16x64_S128x64_S4x20000x16x128_3_1_012_0_n_n_wf
def dot_S4x20000x64_S128x64_S4x20000x128_2_1_01_0_n_n : DotDims S4x20000x64 S128x64 S4x20000x128 where
  lhsContracting := [2]
  rhsContracting := [1]
  lhsNonContracting := [0, 1]
  rhsNonContracting := [0]
  lhsBatch := []
  rhsBatch := []
  wf := dot_S4x20000x64_S128x64_S4x20000x128_2_1_01_0_n_n_wf

class Facts : Prop extends Facts₀ where

variable [Facts]
-- ==== Proof.Spec.lean ====
/-
  The edge-convolution layer as one function of its arrays, over the extended reals.

  For a batch `b`, a point `n` and an output channel `o` the layer's value is the maximum, over the sixteen
  neighbours `k` of the point, of

      max ( (∑ c, x c · w₂ (o, c)  +  b₂ o)  +  (∑ c, (y k c − x c) · w₁ (o, c)  +  b₁ o) ,  0 )

  where `x` is the point's own feature row (64 channels) and `y k` the feature row of its `k`-th neighbour.
  The maximum is folded from the value of the pattern of minus infinity, and the rectifier's zero is the value of
  the zero pattern; both patterns are kept as they are printed, since the same word stands on both sides.

  Nothing here knows how the neighbour rows were gathered: the gathered array is a parameter.
-/
import Idealize.ShloMosaic.PureOps.Ideal.Laws
import Idealize.ShloMosaic.Lib.ValueIdx

noncomputable section

namespace Cert.EdgeConv

open Idealize.ShloMosaic Idealize.ShloMosaic.ValueIdx
open scoped BigOperators

/-- One edge: the centre's projection plus the projected difference to a neighbour, rectified. `x` is the centre's
    row, `y` the neighbour's, `u₁`, `u₂` the two weight rows of the output channel, `β₁`, `β₂` its biases. -/
def edgeVal (x y u₁ u₂ : Fin 64 → EReal) (β₁ β₂ : EReal) : EReal :=
  max (((∑ c : Fin 64, x c * u₂ c) + β₂) + ((∑ c : Fin 64, (y c - x c) * u₁ c) + β₁)) (Ideal.ofBits .f32 0x00000000#32)

/-- The maximum of the sixteen edges of one point, folded from minus infinity's value. -/
def poolVal (x : Fin 64 → EReal) (y : Fin 16 → Fin 64 → EReal) (u₁ u₂ : Fin 64 → EReal) (β₁ β₂ : EReal) : EReal :=
  (Finset.univ : Finset (Fin 16)).fold max (Ideal.ofBits .f32 0xFF800000#32) fun k => edgeVal x (y k) u₁ u₂ β₁ β₂

/-- The layer over whole arrays: `nb` the gathered neighbour rows `[4, 20000, 16, 64]`, `xs` the point rows
    `[4, 20000, 64]`, `w₁`, `w₂` the two `[128, 64]` weights and `b₁`, `b₂` their biases; the result is
    `[4, 20000, 128]`. -/
def pooled (nb : (⟨4, ![4, 20000, 16, 64]⟩ : Shape).Idx → EReal) (xs : (⟨3, ![4, 20000, 64]⟩ : Shape).Idx → EReal)
    (w₁ : (⟨2, ![128, 64]⟩ : Shape).Idx → EReal) (b₁ : (⟨1, ![128]⟩ : Shape).Idx → EReal)
    (w₂ : (⟨2, ![128, 64]⟩ : Shape).Idx → EReal) (b₂ : (⟨1, ![128]⟩ : Shape).Idx → EReal) :
    (⟨3, ![4, 20000, 128]⟩ : Shape).Idx → EReal := fun i =>
  poolVal (fun c => xs (ix3 (i 0) (i 1) c)) (fun k c => nb (ix4 (i 0) (i 1) k c))
    (fun c => w₁ (ix2 (i 2) c)) (fun c => w₂ (ix2 (i 2) c)) (b₁ (ix1 (i 2))) (b₂ (ix1 (i 2)))

/-- Equal rows give equal edges. -/
theorem edgeVal_congr {x x' y y' u₁ u₁' u₂ u₂' : Fin 64 → EReal} {β₁ β₁' β₂ β₂' : EReal}
    (hx : ∀ c, x c = x' c) (hy : ∀ c, y c = y' c) (h₁ : ∀ c, u₁ c = u₁' c) (h₂ : ∀ c, u₂ c = u₂' c)
    (e₁ : β₁ = β₁') (e₂ : β₂ = β₂') : edgeVal x y u₁ u₂ β₁ β₂ = edgeVal x' y' u₁' u₂' β₁' β₂' := by
  obtain rfl : x = x' := funext hx
  obtain rfl : y = y' := funext hy
  obtain rfl : u₁ = u₁' := funext h₁
  obtain rfl : u₂ = u₂' := funext h₂
  rw [e₁, e₂]

/-- Equal rows give equal maxima. -/
theorem poolVal_congr {x x' : Fin 64 → EReal} {y y' : Fin 16 → Fin 64 → EReal} {u₁ u₁' u₂ u₂' : Fin 64 → EReal}
    {β₁ β₁' β₂ β₂' : EReal} (hx : ∀ c, x c = x' c) (hy : ∀ k c, y k c = y' k c) (h₁ : ∀ c, u₁ c = u₁' c)
    (h₂ : ∀ c, u₂ c = u₂' c) (e₁ : β₁ = β₁') (e₂ : β₂ = β₂') :
    poolVal x y u₁ u₂ β₁ β₂ = poolVal x' y' u₁' u₂' β₁' β₂' := by
  obtain rfl : x = x' := funext hx
  obtain rfl : y = y' := funext fun k => funext (hy k)
  obtain rfl : u₁ = u₁' := funext h₁
  obtain rfl : u₂ = u₂' := funext h₂
  rw [e₁, e₂]

/-- A fold of `max` over the sixteen neighbours whose `k`-th term is the `k`-th edge is the point's maximum. -/
theorem fold_eq_poolVal (f : Fin 16 → EReal) (x : Fin 64 → EReal) (y : Fin 16 → Fin 64 → EReal) (u₁ u₂ : Fin 64 → EReal)
    (β₁ β₂ : EReal) (hf : ∀ k, f k = edgeVal x (y k) u₁ u₂ β₁ β₂) :
    (Finset.univ : Finset (Fin 16)).fold max (Ideal.ofBits .f32 0xFF800000#32) f = poolVal x y u₁ u₂ β₁ β₂ := by
  obtain rfl : f = fun k => edgeVal x (y k) u₁ u₂ β₁ β₂ := funext hf
  rfl

end Cert.EdgeConv

end
-- ==== Proof.LibMidAxis.lean ====
/-
  Arrays with an axis in the middle: casts that add, merge or split it, a broadcast along it, and a maximum over it,
  each read at an index.

  For a rank-3 array `[a, k, b]`:
  * `[a, b]` cast to `[a, 1, b]` reads, at `(p, 0, j)`, the operand at `(p, j)`;
  * `[a, 1, b]` broadcast to `[a, k, b]` reads, at `(p, q, j)`, the operand at `(p, 0, j)`;
  * `[a, k, b]` cast to `[n, b]` with `n = a · k` reads, at `(p · k + q, j)`, the operand at `(p, q, j)`, and the
    cast back reads the other way;
  * the kernel's maximum over the middle axis, at `(p, j)`, is the fold of `max` over `q : Fin k` of the source at
    `(p, q, j)`, from the accumulator pattern's value.
  For a rank-4 array `[a, b, k, c]` the host's reduction with a maximum body over axis 2 is, at `(p, q, j)`, the fold of
  `max` over `r : Fin k` of the operand at `(p, q, r, j)`, from the initial value.
  Nothing depends on the extents.
-/
import Idealize.ShloMosaic.Lib.Pipeline.Value
import Idealize.ShloMosaic.Lib.ValueIdx
import Idealize.ShloMosaic.PureOps.Ideal.Laws

noncomputable section

namespace Cert.LibMidAxis

open Idealize.ShloMosaic Idealize.ShloMosaic.ValueIdx

variable {α : Type}

/-- `[a, b]` cast to `[a, 1, b]`: at `(p, u, j)` it reads the operand at `(p, j)`. -/
theorem castAddMid_apply {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_two, Shape.rowMajor_val_three]
    show p.val * b + j.val = (p.val * 1 + u.val) * b + j.val
    rw [hu, Nat.mul_one, Nat.add_zero])

/-- `[a, 1, b]` broadcast to `[a, k, b]`: at `(p, q, j)` it reads the operand at `(p, 0, j)`. -/
theorem bcastMid_apply {a k b : ℕ} (x : (⟨3, ![a, 1, b]⟩ : Shape).Idx → α)
    (h : (⟨3, ![a, 1, b]⟩ : Shape).Broadcasts ⟨3, ![a, k, b]⟩) (p : Fin a) (q : Fin k) (j : Fin b) :
    broadcastTo ⟨3, ![a, k, b]⟩ x h (ix3 p q j) = x (ix3 p (0 : Fin 1) j) := by
  refine broadcastTo_apply x h (ix3 p q j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if b = 1 then 0 else j.val
    split
    · have := j.isLt; omega
    · rfl

/-- `[a, k, b]` cast to `[n, b]`: row `p · k + q` at column `j` reads the operand at `(p, q, j)`. -/
theorem castMerge_apply {a k b n : ℕ} (x : (⟨3, ![a, k, b]⟩ : Shape).Idx → α)
    (h : (⟨3, ![a, k, b]⟩ : Shape).ShapeCasts ⟨2, ![n, b]⟩) (p : Fin a) (q : Fin k) (j : Fin b) (i : Fin n)
    (hi : i.val = p.val * k + q.val) :
    shapeCast ⟨2, ![n, b]⟩ x h (ix2 i j) = x (ix3 p q j) :=
  shapeCast_apply x h _ _ (by
    rw [Shape.rowMajor_val_three, Shape.rowMajor_val_two]
    show (p.val * k + q.val) * b + j.val = i.val * b + j.val
    rw [hi])

/-- `[n, b]` cast to `[a, k, b]`: at `(p, q, j)` it reads the operand's row `p · k + q` at column `j`. -/
theorem castSplit_apply {a k b n : ℕ} (x : (⟨2, ![n, b]⟩ : Shape).Idx → α)
    (h : (⟨2, ![n, b]⟩ : Shape).ShapeCasts ⟨3, ![a, k, b]⟩) (p : Fin a) (q : Fin k) (j : Fin b) (i : Fin n)
    (hi : i.val = p.val * k + q.val) :
    shapeCast ⟨3, ![a, k, b]⟩ x h (ix3 p q j) = x (ix2 i j) :=
  shapeCast_apply x h _ _ (by
    rw [Shape.rowMajor_val_two, Shape.rowMajor_val_three]
    show i.val * b + j.val = (p.val * k + q.val) * b + j.val
    rw [hi])

/-- The reduced index `(p, j)` of `[a, k, b]` with the middle coordinate `q` put back is `(p, q, j)`. -/
theorem lift_mid {a k b : ℕ} (h : (⟨3, ![a, k, b]⟩ : Shape).Reduces [1] ⟨2, ![a, b]⟩) (p : Fin a) (j : Fin b)
    (q : Fin ((⟨3, ![a, k, b]⟩ : Shape).size 1)) : h.lift (ix2 p j) q = ix3 p (⟨q.val, q.isLt⟩ : Fin k) j := by
  funext c; apply Fin.ext
  fin_cases c <;> rfl

/-- The kernel's maximum over the middle axis of `[a, k, b]`, at `(p, j)`: the fold of `max` over the `k` middle
    coordinates from the accumulator pattern's value. -/
theorem maxMid_apply {a k b : ℕ} {φ : FTy} (src : FVec Ideal ⟨3, ![a, k, b]⟩ φ) (acc : BitVec φ.bits)
    (h : (⟨3, ![a, k, b]⟩ : Shape).Reduces [1] ⟨2, ![a, b]⟩) (hφ : FKind.Formats φ) (hacc : acc = FKind.maximumf.neutral φ hφ)
    (p : Fin a) (j : Fin b) :
    multiReduction .maximumf [1] ⟨2, ![a, b]⟩ src acc h hφ hacc (ix2 p j)
      = (Finset.univ : Finset (Fin k)).fold max (Ideal.ofBits φ acc) fun q => src (ix3 p q j) := by
  rw [Ideal.multiReduction_maximumf_single src acc h hφ hacc (ix2 p j)]
  have hf : (src ∘ h.lift (ix2 p j)) = fun q : Fin k => src (ix3 p q j) :=
    funext fun q => congrArg src (lift_mid h p j q)
  exact congrArg (fun f => Finset.fold max (Ideal.ofBits φ acc) f (Finset.univ : Finset (Fin k))) hf

/-- The reduced index `(p, q, j)` of `[a, b, k, c]` with coordinate `r` put back on axis 2 is `(p, q, r, j)`. -/
theorem lift_axis2 {a b k c : ℕ} (h : (⟨4, ![a, b, k, c]⟩ : Shape).Reduces [2] ⟨3, ![a, b, c]⟩) (p : Fin a) (q : Fin b)
    (j : Fin c) (r : Fin ((⟨4, ![a, b, k, c]⟩ : Shape).size 2)) :
    h.lift (ix3 p q j) r = ix4 p q (⟨r.val, r.isLt⟩ : Fin k) j := by
  funext d; apply Fin.ext
  fin_cases d <;> rfl

/-- The host's reduction with a maximum body over axis 2 of `[a, b, k, c]`, at `(p, q, j)`: the fold of `max` over the
    `k` coordinates of that axis from the initial value. -/
theorem hostMaxAxis2_apply {a b k c : ℕ} {φ : FTy} (x : FVec Ideal ⟨4, ![a, b, k, c]⟩ φ) (init : FVec Ideal ⟨0, ![]⟩ φ)
    (h' : (⟨4, ![a, b, k, c]⟩ : Shape).ReducesTo [2] ⟨3, ![a, b, c]⟩) (h : (⟨4, ![a, b, k, c]⟩ : Shape).Reduces [2] ⟨3, ![a, b, c]⟩)
    (hu : 0 < (⟨0, ![]⟩ : Shape).numel) (p : Fin a) (q : Fin b) (j : Fin c) :
    Host.reduce FloatOps.maximumf x init h' hu (ix3 p q j)
      = (Finset.univ : Finset (Fin k)).fold max (init ix0) fun r => x (ix4 p q r j) := by
  rw [Host.reduce_eq_fold_single FloatOps.maximumf x init h' h hu (ix3 p q j)]
  have hf : (x ∘ h.lift (ix3 p q j)) = fun r : Fin k => x (ix4 p q r j) :=
    funext fun r => congrArg x (lift_axis2 h p q j r)
  have hi : init (Shape.Idx.first hu) = init ix0 := congrArg init (eq_ix0 _)
  rw [hi]
  exact congrArg (fun f => Finset.fold max (init ix0) f (Finset.univ : Finset (Fin k))) hf

end Cert.LibMidAxis

end
-- ==== Proof.RefLayer.lean ====
/-
  The reference's layer, read at an index.

  Before its last reshape the reference holds, at `(b, n, o)`, the maximum over the neighbours `k` of the rectified
  sum of the centre's projection and the projected difference — `EdgeConv.pooled` of the gathered rows, the point
  rows, the two weights and the two biases. Each host operation is read at an index by its generated lemma; the two
  contractions are sums over the 64 channels, the broadcasts of the biases and of the centre's terms read their
  operand at the coordinates they keep, and the reduction over the neighbour axis is a fold of `max` over its sixteen
  coordinates from the initial value. The gather itself is never opened: its result is the array the layer is a
  function of.
-/
import proofs.«428887_j60009283059881_3_alg».proof.Proof.Gen.ReferenceIdeal.Read
import proofs.«428887_j60009283059881_3_alg».proof.Proof.Spec
import proofs.«428887_j60009283059881_3_alg».proof.Proof.LibMidAxis

noncomputable section

namespace Cert.ReferenceIdeal.Layer

open Cert.ReferenceIdeal Cert.ReferenceIdeal.Gen Cert.ReferenceIdeal.Read
open Idealize.ShloMosaic Idealize.ShloMosaic.ValueIdx Idealize.ShloMosaic.StableHlo

/-- The neighbour axis of `[4, 20000, 16, 128]` reduces to `[4, 20000, 128]`. -/
theorem nbrAxis : S4x20000x16x128.Reduces [2] S4x20000x128 := by decide

variable (x0 : (⟨S4x20000x1x64, .f32⟩ : BufTy).Contents (Elt Ideal)) (x1 : (⟨S4x20000x16, .i32⟩ : BufTy).Contents (Elt Ideal))
  (x2 : (⟨S128x64, .f32⟩ : BufTy).Contents (Elt Ideal)) (x3 : (⟨S128, .f32⟩ : BufTy).Contents (Elt Ideal))
  (x4 : (⟨S128x64, .f32⟩ : BufTy).Contents (Elt Ideal)) (x5 : (⟨S128, .f32⟩ : BufTy).Contents (Elt Ideal))

/-- The rectified edge at `(b, n, k, o)`: the centre's projection `∑ c, xs (b, n, c) · w₂ (o, c) + b₂ o` plus the
    projected difference `∑ c, (nb (b, n, k, c) − xs (b, n, c)) · w₁ (o, c) + b₁ o`, against zero. -/
theorem edge_apply (b : Fin 4) (n : Fin 20000) (k : Fin 16) (o : Fin 128) :
    val_main_v22 (F := Ideal) x0 x1 x2 x3 x4 x5 (ix4 b n k o)
      = EdgeConv.edgeVal (fun c => val_main_v0 (F := Ideal) x0 (ix3 b n c)) (fun c => val_main_v7 (F := Ideal) x0 x1 (ix4 b n k c))
          (fun c => x2 (ix2 o c)) (fun c => x4 (ix2 o c)) (x3 (ix1 o)) (x5 (ix1 o)) := by
  have eCl : ∀ c : Fin 64, lidx_main_v15 (idx_main_v19 (idx_main_v20 (ix4 b n k o))) c = ix3 b n c := fun c =>
    funext fun a => by match a with | ⟨0, _⟩ => rfl | ⟨1, _⟩ => rfl | ⟨2, _⟩ => rfl
  have eCr : ∀ c : Fin 64, ridx_main_v15 (idx_main_v19 (idx_main_v20 (ix4 b n k o))) c = ix2 o c := fun c =>
    funext fun a => by match a with | ⟨0, _⟩ => rfl | ⟨1, _⟩ => rfl
  have eCb : idx_main_v16 (idx_main_v17 (idx_main_v19 (idx_main_v20 (ix4 b n k o)))) = ix1 o :=
    funext fun a => by match a with | ⟨0, _⟩ => rfl
  have eDl : ∀ c : Fin 64, lidx_main_v11 (ix4 b n k o) c = ix4 b n k c := fun c =>
    funext fun a => by match a with | ⟨0, _⟩ => rfl | ⟨1, _⟩ => rfl | ⟨2, _⟩ => rfl | ⟨3, _⟩ => rfl
  have eDr : ∀ c : Fin 64, ridx_main_v11 (ix4 b n k o) c = ix2 o c := fun c =>
    funext fun a => by match a with | ⟨0, _⟩ => rfl | ⟨1, _⟩ => rfl
  have eDx : ∀ c : Fin 64, idx_main_v8 (idx_main_v9 (ix4 b n k c)) = ix3 b n c := fun c =>
    funext fun a => by match a with | ⟨0, _⟩ => rfl | ⟨1, _⟩ => rfl | ⟨2, _⟩ => rfl
  have eDb : idx_main_v12 (idx_main_v13 (ix4 b n k o)) = ix1 o :=
    funext fun a => by match a with | ⟨0, _⟩ => rfl
  rw [val_main_v22_apply, val_main_v21_apply, val_main_v20_apply, val_main_v19_apply, val_main_v18_apply,
    val_main_v15_apply, val_main_v17_apply, val_main_v16_apply, val_main_v14_apply, val_main_v11_apply,
    val_main_v13_apply, val_main_v12_apply, val_main_call0_v0_apply, val_main_call0_cst_apply]
  simp only [val_main_v10_apply, val_main_v9_apply, val_main_v8_apply, eCl, eCr, eCb, eDl, eDr, eDx, eDb]
  rfl

/-- The reference's array before its last reshape is the layer of the gathered rows, the point rows, the weights and
    the biases. -/
theorem pooled_eq :
    val_main_v23 (F := Ideal) x0 x1 x2 x3 x4 x5
      = EdgeConv.pooled (val_main_v7 (F := Ideal) x0 x1) (val_main_v0 (F := Ideal) x0) x2 x3 x4 x5 := by
  funext i
  obtain ⟨b, n, o, rfl⟩ : ∃ (b : Fin 4) (n : Fin 20000) (o : Fin 128), i = ix3 b n o := ⟨i 0, i 1, i 2, eq_ix3 i⟩
  unfold val_main_v23
  rw [LibMidAxis.hostMaxAxis2_apply _ _ reducesTo_S4x20000x16x128_S4x20000x128_d2 nbrAxis h_S_ b n o]
  exact EdgeConv.fold_eq_poolVal _ _ _ _ _ _ _ fun k => edge_apply x0 x1 x2 x3 x4 x5 b n k o

end Cert.ReferenceIdeal.Layer

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KernelBody.lean ====
/-
  The kernel body's stored value, read at an index.

  At one grid point the body holds a block of 1000 points: their own rows `q` (`[1, 1000, 64]`), the rows of their
  sixteen neighbours `y` (`[1, 1000, 16, 64]`), the two transposed weights `[64, 128]` and the two biases. It
  subtracts the point's row from each neighbour's, multiplies the 16000 difference rows by the first weight and adds the
  first bias, multiplies the 1000 point rows by the second weight and adds the second bias, adds the second to each of
  the point's sixteen firsts, rectifies, and takes the maximum over the sixteen. Read at `(0, r, o)` that is the maximum
  over `k` of

      max ( (∑ c, q (r, c) · W₂ (c, o) + b₂ o) + (∑ c, (y (r, k, c) − q (r, c)) · W₁ (c, o) + b₁ o), 0 ),

  `EdgeConv.poolVal` of the block's rows. The change of float format of the weights is the identity on the extended
  reals; a difference row `r · 16 + k` of the merged `[16000, 64]` array is neighbour `k` of point `r`.
-/
import proofs.«428887_j60009283059881_3_alg».proof.Proof.Gen.KernelIdeal.Skeleton
import proofs.«428887_j60009283059881_3_alg».proof.Proof.Spec
import proofs.«428887_j60009283059881_3_alg».proof.Proof.LibMidAxis
import proofs.«428887_j60009283059881_3_alg».proof.Proof.LibRowOps
import Idealize.ShloMosaic.Lib.ValueLayout

noncomputable section

namespace Cert.KernelIdeal.Body

open Cert.KernelIdeal Cert.KernelIdeal.Gen
open Idealize.ShloMosaic Idealize.ShloMosaic.ValueIdx

/-- The product of the difference rows with the first weight contracts the rows' channels with the weight's rows. -/
theorem dotNbr_plain : dot_S16000x64_S64x128_S16000x128_1_0_0_1_n_n = DotDims.plain 16000 64 128 := rfl

/-- So does the product of the point rows with the second weight. -/
theorem dotCtr_plain : dot_S1000x64_S64x128_S1000x128_1_0_0_1_n_n = DotDims.plain 1000 64 128 := rfl

/-- The body's stored value at `(u, r, o)` is the maximum over the sixteen neighbours of point `r` of the rectified edge,
    from the block's rows. -/
theorem payload_apply (v0 : Vec Ideal S1x1000x64 .bf16) (v2 : Vec Ideal S1x1000x16x64 .bf16) (v8 : Vec Ideal S64x128 .f32)
    (v12 : Vec Ideal S128 .f32) (v17 : Vec Ideal S64x128 .f32) (v21 : Vec Ideal S128 .f32) (u : Fin 1) (r : Fin 1000) (o : Fin 128) :
    k0_pay1 (F := Ideal) v0 v2 v8 v12 v17 v21 (ix3 u r o)
      = EdgeConv.poolVal (fun c => v0 (ix3 (0 : Fin 1) r c)) (fun k c => v2 (ix4 (0 : Fin 1) r k c))
          (fun c => v8 (ix2 c o)) (fun c => v17 (ix2 c o)) (v12 (ix1 o)) (v21 (ix1 o)) := by
  unfold k0_pay1
  dsimp only
  refine (shapeCast_ab_1ab_apply _ _ u r o).trans ?_
  refine (LibMidAxis.maxMid_apply _ _ _ _ _ r o).trans ?_
  refine EdgeConv.fold_eq_poolVal _ _ _ _ _ _ _ fun k => ?_
  have hrk : r.val * 16 + k.val < 16000 := by have := r.isLt; have := k.isLt; omega
  rw [maximumf_apply, addf_apply, broadcast_apply]
  rw [LibMidAxis.bcastMid_apply, LibMidAxis.castAddMid_apply,
    LibRowOps.layer_apply _ dotCtr_plain _ _ _ _ _ r o (fun c => v0 (ix3 (0 : Fin 1) r c))
      (fun c => shapeCast_1ab_ab_apply v0 _ r c)]
  rw [LibMidAxis.castSplit_apply _ _ r k o ⟨r.val * 16 + k.val, hrk⟩ rfl,
    LibRowOps.layer_apply _ dotNbr_plain _ _ _ _ _ ⟨r.val * 16 + k.val, hrk⟩ o
      (fun c => v2 (ix4 (0 : Fin 1) r k c) - v0 (ix3 (0 : Fin 1) r c))
      (fun c => by
        rw [LibMidAxis.castMerge_apply _ _ r k c ⟨r.val * 16 + k.val, hrk⟩ rfl, subf_apply, shapeCast_1abc_abc_apply,
          LibMidAxis.bcastMid_apply, LibMidAxis.castAddMid_apply, shapeCast_1ab_ab_apply])]
  simp only [truncf_apply, shapeCast_self]
  rfl

end Cert.KernelIdeal.Body

end
-- ==== Proof.KernelBlocks.lean ====
/-
  From the blocks to the array.

  The grid has 4 × 20 points; point `(β, τ)` stages rows `1000 τ … 1000 τ + 999` of batch `β` of the point rows and
  of the gathered neighbour rows, the whole of the two transposed weights and of the two biases, and writes back the
  same rows of the output, all 128 channels. So what a point writes back is the block of the layer — the maximum over
  the neighbours of the rectified edges, `EdgeConv.poolVal`, of the arrays the region finds — and the 80 blocks tile
  `[4, 20000, 128]`: the output array ends holding the layer at every index.
-/
import proofs.«428887_j60009283059881_3_alg».proof.Proof.Gen.KernelIdeal.Frame
import proofs.«428887_j60009283059881_3_alg».proof.Proof.KernelBody
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zeroOffset1 : (![0] : Fin 1 → Nat) = fun _ => 0 := funext fun a => by fin_cases a <;> rfl
theorem zeroOffset2 : (![0, 0] : Fin 2 → Nat) = fun _ => 0 := funext fun a => by fin_cases a <;> rfl
theorem zeroOffset3 : (![0, 0, 0] : Fin 3 → Nat) = fun _ => 0 := funext fun a => by fin_cases a <;> rfl
theorem zeroOffset4 : (![0, 0, 0, 0] : Fin 4 → Nat) = fun _ => 0 := funext fun a => by fin_cases a <;> rfl

/-! ## The arrays the region finds -/

/-- The gathered neighbour rows. -/
abbrev nbArr (c : Dev nD) : S4x20000x16x64.Idx → EReal := V m c main_v8
/-- The point rows. -/
abbrev xsArr (c : Dev nD) : S4x20000x64.Idx → EReal := V m c main_v1
/-- The first weight, transposed. -/
abbrev w1tArr (c : Dev nD) : S64x128.Idx → EReal := V m c main_v9
/-- The first bias. -/
abbrev b1Arr (c : Dev nD) : S128.Idx → EReal := V m c main_arg3
/-- The second weight, transposed. -/
abbrev w2tArr (c : Dev nD) : S64x128.Idx → EReal := V m c main_v10
/-- The second bias. -/
abbrev b2Arr (c : Dev nD) : S128.Idx → EReal := V m c main_arg5

/-- The layer of those arrays: at `(b, n, o)` the maximum over the neighbours of point `(b, n)` of the rectified edges
    into channel `o`, the weights read through their transposes. -/
def layerArr (c : Dev nD) : S4x20000x128.Idx → EReal := fun i =>
  EdgeConv.poolVal (fun ch => xsArr m c (ix3 (i 0) (i 1) ch)) (fun k ch => nbArr m c (ix4 (i 0) (i 1) k ch))
    (fun ch => w1tArr m c (ix2 ch (i 2))) (fun ch => w2tArr m c (ix2 ch (i 2))) (b1Arr m c (ix1 (i 2))) (b2Arr m c (ix1 (i 2)))

/-! ## Where each window's block lies -/

/-- The printed index maps, decided over the grid: the neighbour rows' and the point rows' blocks move with the output's
    on the batch and the row-tile axes and stay at zero on the others; the weights' and the biases' stay at zero. -/
theorem tiles_move_together : ∀ t : Fin cfg0.N,
    win0_0.index t (0 : Fin 4) = win0_6.index t (0 : Fin 3) ∧ win0_0.index t (1 : Fin 4) = win0_6.index t (1 : Fin 3)
    ∧ win0_0.index t (2 : Fin 4) = 0 ∧ win0_0.index t (3 : Fin 4) = 0
    ∧ win0_1.index t (0 : Fin 3) = win0_6.index t (0 : Fin 3) ∧ win0_1.index t (1 : Fin 3) = win0_6.index t (1 : Fin 3)
    ∧ win0_1.index t (2 : Fin 3) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 3) ≤ 3 ∧ win0_6.index t (1 : Fin 3) ≤ 19 ∧ win0_6.index t (2 : Fin 3) = 0 :=
  (by decide +kernel : ∀ t : Fin grid0.N, _)

/-- Every batch and every row tile is some point's. -/
theorem every_tile_visited : ∀ (q0 : Fin 4) (q1 : Fin 20), ∃ t : Fin cfg0.N, win0_6.index t = ![q0.val, q1.val, 0] :=
  (by decide +kernel : ∀ (q0 : Fin 4) (q1 : Fin 20), ∃ t : Fin grid0.N, win0_6.index t = ![q0.val, q1.val, 0])

/-- Row `r` of the point rows' block at point `t` is row `1000 τ + r` of batch `β` of the array. -/
theorem pointRows_tile (c : Dev nD) (t : Fin cfg0.N) (r : Fin 1000) (ch : Fin 64) (b : Fin 4) (n : Fin 20000)
    (hb : b.val = win0_6.index t (0 : Fin 3)) (hn : n.val = win0_6.index t (1 : Fin 3) * 1000 + r.val) :
    (iblk m c 1 t : Vec Ideal S1x1000x64 .bf16) (ix3 (0 : Fin 1) r ch) = xsArr m c (ix3 b n ch) := by
  obtain ⟨-, -, -, -, e0, e1, e2, -⟩ := tiles_move_together t
  unfold iblk
  rw [View.read_apply]
  show V m c main_v1 _ = V m c main_v1 _
  congr 1
  funext a
  apply Fin.ext
  match a with
  | ⟨0, _⟩ => show win0_1.index t (0 : Fin 3) * 1 + 1 * 0 = b.val; omega
  | ⟨1, _⟩ => show win0_1.index t (1 : Fin 3) * 1000 + 1 * r.val = n.val; omega
  | ⟨2, _⟩ => show win0_1.index t (2 : Fin 3) * 64 + 1 * ch.val = ch.val; omega

/-- Neighbour `k` of row `r` of the neighbour rows' block at point `t` is neighbour `k` of row `1000 τ + r` of batch `β`. -/
theorem nbrRows_tile (c : Dev nD) (t : Fin cfg0.N) (r : Fin 1000) (k : Fin 16) (ch : Fin 64) (b : Fin 4) (n : Fin 20000)
    (hb : b.val = win0_6.index t (0 : Fin 3)) (hn : n.val = win0_6.index t (1 : Fin 3) * 1000 + r.val) :
    (iblk m c 0 t : Vec Ideal S1x1000x16x64 .bf16) (ix4 (0 : Fin 1) r k ch) = nbArr m c (ix4 b n k ch) := by
  obtain ⟨e0, e1, e2, e3, -⟩ := tiles_move_together t
  unfold iblk
  rw [View.read_apply]
  show V m c main_v8 _ = V m c main_v8 _
  congr 1
  funext a
  apply Fin.ext
  match a with
  | ⟨0, _⟩ => show win0_0.index t (0 : Fin 4) * 1 + 1 * 0 = b.val; omega
  | ⟨1, _⟩ => show win0_0.index t (1 : Fin 4) * 1000 + 1 * r.val = n.val; omega
  | ⟨2, _⟩ => show win0_0.index t (2 : Fin 4) * 16 + 1 * k.val = k.val; omega
  | ⟨3, _⟩ => show win0_0.index t (3 : Fin 4) * 64 + 1 * ch.val = ch.val; omega

/-- The first weight's block is the whole transposed weight. -/
theorem weight1_whole (c : Dev nD) (t : Fin cfg0.N) (ch : Fin 64) (o : Fin 128) :
    (iblk m c 2 t : Vec Ideal S64x128 .f32) (ix2 ch o) = w1tArr m c (ix2 ch o) := by
  obtain ⟨-, -, -, -, -, -, -, e0, e1, -⟩ := tiles_move_together t
  unfold iblk
  rw [View.read_apply]
  show V m c main_v9 _ = V m c main_v9 _
  congr 1
  funext a
  apply Fin.ext
  match a with
  | ⟨0, _⟩ => show win0_2.index t (0 : Fin 2) * 64 + 1 * ch.val = ch.val; omega
  | ⟨1, _⟩ => show win0_2.index t (1 : Fin 2) * 128 + 1 * o.val = o.val; omega

/-- The first bias's block is the whole bias. -/
theorem bias1_whole (c : Dev nD) (t : Fin cfg0.N) (o : Fin 128) :
    (iblk m c 3 t : Vec Ideal S128 .f32) (ix1 o) = b1Arr m c (ix1 o) := by
  obtain ⟨-, -, -, -, -, -, -, -, -, e0, -⟩ := tiles_move_together t
  unfold iblk
  rw [View.read_apply]
  show V m c main_arg3 _ = V m c main_arg3 _
  congr 1
  funext a
  apply Fin.ext
  match a with
  | ⟨0, _⟩ => show win0_3.index t (0 : Fin 1) * 128 + 1 * o.val = o.val; omega

/-- The second weight's block is the whole transposed weight. -/
theorem weight2_whole (c : Dev nD) (t : Fin cfg0.N) (ch : Fin 64) (o : Fin 128) :
    (iblk m c 4 t : Vec Ideal S64x128 .f32) (ix2 ch o) = w2tArr m c (ix2 ch o) := by
  obtain ⟨-, -, -, -, -, -, -, -, -, -, e0, e1, -⟩ := tiles_move_together t
  unfold iblk
  rw [View.read_apply]
  show V m c main_v10 _ = V m c main_v10 _
  congr 1
  funext a
  apply Fin.ext
  match a with
  | ⟨0, _⟩ => show win0_4.index t (0 : Fin 2) * 64 + 1 * ch.val = ch.val; omega
  | ⟨1, _⟩ => show win0_4.index t (1 : Fin 2) * 128 + 1 * o.val = o.val; omega

/-- The second bias's block is the whole bias. -/
theorem bias2_whole (c : Dev nD) (t : Fin cfg0.N) (o : Fin 128) :
    (iblk m c 5 t : Vec Ideal S128 .f32) (ix1 o) = b2Arr m c (ix1 o) := by
  obtain ⟨-, -, -, -, -, -, -, -, -, -, -, -, e0, -⟩ := tiles_move_together t
  unfold iblk
  rw [View.read_apply]
  show V m c main_arg5 _ = V m c main_arg5 _
  congr 1
  funext a
  apply Fin.ext
  match a with
  | ⟨0, _⟩ => show win0_5.index t (0 : Fin 1) * 128 + 1 * o.val = o.val; omega

/-! ## What a point writes back, and the array -/

/-- The body's value at `(u, r, o)` of point `t`'s blocks is the layer at `(b, n, o')`, when `(b, n)` is row `r` of the
    point's tile and `o'` is `o`. -/
theorem tile_value (c : Dev nD) (t : Fin cfg0.N) (u : Fin 1) (r : Fin 1000) (o : Fin 128) (i : S4x20000x128.Idx)
    (hb : (i 0).val = win0_6.index t (0 : Fin 3)) (hn : (i 1).val = win0_6.index t (1 : Fin 3) * 1000 + r.val)
    (ho : (i 2).val = o.val) :
    k0_pay1 (F := Ideal) (iblk m c 1 t) (iblk m c 0 t) (iblk m c 2 t) (iblk m c 3 t) (iblk m c 4 t) (iblk m c 5 t) (ix3 u r o)
      = layerArr m c i := by
  obtain rfl : i 2 = o := Fin.ext ho
  refine (Body.payload_apply (iblk m c 1 t) (iblk m c 0 t) (iblk m c 2 t) (iblk m c 3 t) (iblk m c 4 t) (iblk m c 5 t) u r (i 2)).trans ?_
  unfold layerArr
  exact EdgeConv.poolVal_congr (fun ch => pointRows_tile m c t r ch (i 0) (i 1) hb hn) (fun k ch => nbrRows_tile m c t r k ch (i 0) (i 1) hb hn)
    (fun ch => weight1_whole m c t ch (i 2)) (fun ch => weight2_whole m c t ch (i 2)) (bias1_whole m c t (i 2)) (bias2_whole m c t (i 2))

/-- What point `t` writes back is tile `t` of the layer: rows `1000 τ … 1000 τ + 999` of batch `β`, all channels. -/
theorem writeback_is_layer_tile (c : Dev nD) (t : Fin cfg0.N) :
    (dats m 0 c).flushed 6 t = ((cfg0.win 6).blk t).view.read (Elt Ideal) (layerArr m c) := by
  show (cfg0.win 6).cut (grid0.coords t) ((dats m 0 c).after 6 t) = _
  rw [after0_6]
  unfold out0_6
  rw [View.canon_unit_zero zeroOffset3]
  simp only [View.ld_unit_zero (S := S1x1000x64) zeroOffset3, View.ld_unit_zero (S := S1x1000x16x64) zeroOffset4,
    View.ld_unit_zero (S := S64x128) zeroOffset2, View.ld_unit_zero (S := S128) zeroOffset1]
  funext j
  obtain ⟨u, r, o, rfl⟩ : ∃ (u : Fin 1) (r : Fin 1000) (o : Fin 128), j = ix3 u r o := ⟨j 0, j 1, j 2, eq_ix3 j⟩
  obtain ⟨-, -, -, -, -, -, -, -, -, -, -, -, -, -, -, e2⟩ := tiles_move_together t
  refine tile_value m c t u r o _ ?_ ?_ ?_
  · show win0_6.index t (0 : Fin 3) * 1 + 1 * u.val = win0_6.index t (0 : Fin 3); have := u.isLt; omega
  · show win0_6.index t (1 : Fin 3) * 1000 + 1 * r.val = win0_6.index t (1 : Fin 3) * 1000 + r.val; omega
  · show win0_6.index t (2 : Fin 3) * 128 + 1 * o.val = o.val; omega

/-- An index of the output array is in point `t`'s block iff each coordinate is in the block's range on its axis. -/
theorem in_tile_iff (t : Fin cfg0.N) (i : S4x20000x128.Idx) :
    i ∈ ((cfg0.win 6).blk t).view.set ↔ ∀ a : Fin 3, win0_6.index t a * S1x1000x128.size a ≤ (i a).val ∧ (i a).val < win0_6.index t a * S1x1000x128.size a + S1x1000x128.size a := by
  show i ∈ ((View.whole main_v11).slice (win0_6.rect t)).set ↔ _
  rw [View.set_slice_whole, Rect.mem_set_unit]
  exact Iff.rfl

/-- Every index of the output array is in some point's block: batch `b`, row `n` lies in tile `n / 1000` of batch `b`. -/
theorem tiles_cover (i : S4x20000x128.Idx) :
    ∃ t : Fin cfg0.N, (cfg0.win 6).flush t = true ∧ i ∈ ((cfg0.win 6).blk t).view.set := by
  have h0 : (i 0).val < 4 := (i 0).isLt
  have h1 : (i 1).val < 20000 := (i 1).isLt
  have h2 : (i 2).val < 128 := (i 2).isLt
  obtain ⟨t, ht⟩ := every_tile_visited ⟨(i 0).val, h0⟩ ⟨(i 1).val / 1000, by omega⟩
  have q0 : win0_6.index t (0 : Fin 3) = (i 0).val := congrFun ht 0
  have q1 : win0_6.index t (1 : Fin 3) = (i 1).val / 1000 := congrFun ht 1
  have q2 : win0_6.index t (2 : Fin 3) = 0 := congrFun ht 2
  refine ⟨t, flush0_6 t, ?_⟩
  rw [in_tile_iff]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1000 ≤ (i 1).val ∧ (i 1).val < win0_6.index t (1 : Fin 3) * 1000 + 1000; omega
  | ⟨2, _⟩ => show win0_6.index t (2 : Fin 3) * 128 ≤ (i 2).val ∧ (i 2).val < win0_6.index t (2 : Fin 3) * 128 + 128; omega

/-- The tiles cover the output, so after the run the output array is the layer of the arrays the region finds. -/
theorem output_is_layer (c : Dev nD) : (dats m 0 c).arrAt 6 cfg0.N = layerArr m c :=
  (dats m 0 c).arrAt_eq_of_cover 6 (layerArr m c) (fun t _ => writeback_is_layer_tile m c t) tiles_cover

end Cert.KernelIdeal.Blocks

end
-- ==== Proof.KernelHost.lean ====
/-
  The host operations around the region, and the kernel program's run read as a value.

  Before the region the program drops the unit axis of the points (`rows`), brings negative neighbour indices into
  range by adding 20000 and gives them a trailing unit axis (`starts`), gathers the neighbours' rows (`gathered`) and
  transposes the two weights; the change of the rows' float format is the identity on the extended reals. After the
  region it puts the unit axis back into the output. So the result is that reshape of the layer
  (`EdgeConv.pooled`) of the gathered rows, the point rows, the weights — a transposed weight read at `(c, o)` is the
  weight at `(o, c)` — and the biases.
-/
import proofs.«428887_j60009283059881_3_alg».proof.Proof.KernelBlocks
import Idealize.ShloMosaic.Lib.StableHlo.Run
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The point rows `[4, 20000, 64]`: the points with their unit axis dropped. -/
abbrev rows (x : S4x20000x1x64.Idx → EReal) : S4x20000x64.Idx → EReal :=
  shapeCast S4x20000x64 x shapeCasts_S4x20000x1x64_S4x20000x64

/-- The gather's start indices: a negative neighbour index has 20000 added, and a trailing unit axis is put on. -/
abbrev starts (ix : S4x20000x16.Idx → BitVec 32) : S4x20000x16x1.Idx → BitVec 32 :=
  broadcastInDim S4x20000x16x1 ![0, 1, 2] bcast_S4x20000x16_S4x20000x16x1_0_1_2
    (select (cmpi .slt ix (broadcastInDim S4x20000x16 ![] bcast_S_S4x20000x16 (constantI S_ 32 0#32)))
      (addi ix (broadcastInDim S4x20000x16 ![] bcast_S_S4x20000x16 (constantI S_ 32 20000#32))) ix)

/-- The neighbours' rows `[4, 20000, 16, 64]`, gathered from the point rows of the same batch. -/
abbrev gathered (x : S4x20000x1x64.Idx → EReal) (ix : S4x20000x16.Idx → BitVec 32) : S4x20000x16x64.Idx → EReal :=
  Host.gather gather_S4x20000x64_S4x20000x16x1_S4x20000x16x64_3_1_0_0_1_3_1164 (rows x) (starts ix)

/-- The reshape after the region: the unit axis put back. -/
abbrev unsqueeze (y : S4x20000x128.Idx → EReal) : S4x20000x1x128.Idx → EReal :=
  broadcastInDim S4x20000x1x128 ![0, 1, 3] bcast_S4x20000x128_S4x20000x1x128_0_1_3 y

/-! ## The arrays the region finds, as terms of the arguments -/

theorem rows_eq (c : Dev nD) : Blocks.xsArr m c = rows (m ((c : Thread nD τ).loc main_arg0)) := by
  show StableHlo.after hostOps0 (fun b => m (c, b)) (Proc.devRef .tc main_v1) = _
  after_results <;> rfl

theorem gathered_eq (c : Dev nD) :
    Blocks.nbArr m c = gathered (m ((c : Thread nD τ).loc main_arg0)) (m ((c : Thread nD τ).loc main_arg1)) := by
  show StableHlo.after hostOps0 (fun b => m (c, b)) (Proc.devRef .tc main_v8) = _
  after_results <;> rfl

theorem w1t_eq (c : Dev nD) :
    Blocks.w1tArr m c = transpose S64x128 [1, 0] (m ((c : Thread nD τ).loc main_arg2)) transposes_S128x64_S64x128_1_0 := by
  show StableHlo.after hostOps0 (fun b => m (c, b)) (Proc.devRef .tc main_v9) = _
  after_results <;> rfl

theorem w2t_eq (c : Dev nD) :
    Blocks.w2tArr m c = transpose S64x128 [1, 0] (m ((c : Thread nD τ).loc main_arg4)) transposes_S128x64_S64x128_1_0 := by
  show StableHlo.after hostOps0 (fun b => m (c, b)) (Proc.devRef .tc main_v10) = _
  after_results <;> rfl

/-- The layer of the arrays the region finds is the layer of the arguments' rows, gathered rows, weights and biases. -/
theorem layer_eq (c : Dev nD) :
    Blocks.layerArr m c
      = EdgeConv.pooled (gathered (m ((c : Thread nD τ).loc main_arg0)) (m ((c : Thread nD τ).loc main_arg1)))
          (rows (m ((c : Thread nD τ).loc main_arg0))) (m ((c : Thread nD τ).loc main_arg2)) (m ((c : Thread nD τ).loc main_arg3))
          (m ((c : Thread nD τ).loc main_arg4)) (m ((c : Thread nD τ).loc main_arg5)) := by
  funext i
  unfold Blocks.layerArr EdgeConv.pooled
  refine EdgeConv.poolVal_congr (fun ch => congrFun (rows_eq m c) _) (fun k ch => congrFun (gathered_eq m c) _)
    (fun ch => ?_) (fun ch => ?_) (congrFun (V_main_arg3 m c) _) (congrFun (V_main_arg5 m c) _)
  · exact (congrFun (w1t_eq m c) _).trans (transpose_ix2_apply _ _ ch (i 2))
  · exact (congrFun (w2t_eq m c) _).trans (transpose_ix2_apply _ _ ch (i 2))

/-! ## The reshape after the region -/

/-- The program's result is the output array with its unit axis put back. -/
theorem tail_eq (c : Dev nD) :
    Pipeline.afterTail₀ cfgs (dats m) 0 (V0 m) [hostOps1] c main_v12 = unsqueeze ((dats m 0 c).arrAt 6 cfg0.N) := by
  unfold Pipeline.afterTail₀
  show StableHlo.after hostOps1 _ (Proc.devRef .tc main_v12) = _
  after_results
  exact congrArg _ (Pipeline.withArrays_arr spec0 launch0.win.arr_inj c _ _ 6)

/-! ## The run, read -/

/-- Every weakly fair execution of the kernel program ends with its result at the reshaped layer of the arguments and
    the arguments unchanged. -/
theorem run : θ_run defs (onTc (τ := τ) (main (F := Ideal))) ⟨m, fun _ => 0, ρ⟩ fun r => ∀ c : Dev nD,
      r.2.mem ((c : Thread nD τ).loc main_v12)
          = unsqueeze (EdgeConv.pooled (gathered (m ((c : Thread nD τ).loc main_arg0)) (m ((c : Thread nD τ).loc main_arg1)))
              (rows (m ((c : Thread nD τ).loc main_arg0))) (m ((c : Thread nD τ).loc main_arg2)) (m ((c : Thread nD τ).loc main_arg3))
              (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v12 (Pipeline.mem_restRefs_of main_v12 (by decide) (by decide))).trans
        ((tail_eq m c).trans (congrArg _ ((Blocks.output_is_layer m c).trans (layer_eq m c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.HostSide

end
-- ==== Proof.lean ====
/- The edge-convolution kernel against its reference, over the extended reals.

   Both programs compute, for batch `b`, point `n` and output channel `o`,

       max over the 16 neighbours k of   max ( (∑ c, x c · w₂ (o, c) + b₂ o) + (∑ c, (y k c − x c) · w₁ (o, c) + b₁ o), 0 )

   where `x` is the point's feature row and `y k` the row of its `k`-th neighbour, gathered from the points of the same
   batch at the neighbour index (a negative index has 20000 added; the gather is the same operation on the same
   start indices in both programs and is never opened). The kernel gathers first, then runs over 4 × 20 tiles of 1000
   points: in a tile it multiplies the 16000 difference rows and the 1000 point rows by the transposed weights,
   adds, rectifies and takes the maximum over each point's sixteen rows; its blocks tile the output. The reference does
   the same with two contractions over the whole arrays and one reduction over the neighbour axis. The sums have the
   same terms in the same order of factors, the additions are grouped alike, the kernel's changes of float format
   are the identity on the extended reals, and a transposed weight at `(c, o)` is the weight at `(o, c)`: the two
   results are one function of the arguments, so no law of the extended reals beyond that is needed and the
   precondition is not opened.
   The three frames: the kernel's two are the generated frames; the reference's is its generated run with the result
   dropped. The idealization rewrote nothing. -/
import proofs.«428887_j60009283059881_3_alg».proof.Defs
import proofs.«428887_j60009283059881_3_alg».proof.Proof.Gen.Kernel
import proofs.«428887_j60009283059881_3_alg».proof.Proof.Gen.Kernel.Skeleton
import proofs.«428887_j60009283059881_3_alg».proof.Proof.Gen.Kernel.Launch
import proofs.«428887_j60009283059881_3_alg».proof.Proof.Gen.Kernel.Points
import proofs.«428887_j60009283059881_3_alg».proof.Proof.Gen.Kernel.Frame
import proofs.«428887_j60009283059881_3_alg».proof.Proof.Gen.KernelIdeal
import proofs.«428887_j60009283059881_3_alg».proof.Proof.Gen.KernelIdeal.Skeleton
import proofs.«428887_j60009283059881_3_alg».proof.Proof.Gen.KernelIdeal.Launch
import proofs.«428887_j60009283059881_3_alg».proof.Proof.Gen.KernelIdeal.Points
import proofs.«428887_j60009283059881_3_alg».proof.Proof.Gen.KernelIdeal.Frame
import proofs.«428887_j60009283059881_3_alg».proof.Proof.Gen.ReferenceIdeal
import proofs.«428887_j60009283059881_3_alg».proof.Proof.Gen.Pre_finite_inputs
import proofs.«428887_j60009283059881_3_alg».proof.Proof.Gen.ReferenceIdeal.Run
import proofs.«428887_j60009283059881_3_alg».proof.Proof.Gen.ReferenceIdeal.Read
import proofs.«428887_j60009283059881_3_alg».proof.Proof.RefLayer
import proofs.«428887_j60009283059881_3_alg».proof.Proof.KernelHost
import Idealize.ShloMosaic.Adequacy
import Idealize.ShloMosaic.Init

noncomputable section

namespace Cert.Proof

open Idealize.ShloMosaic Idealize.ShloMosaic.TcCoe Idealize.SL.Sem

/-- The reference's point rows are the kernel program's: the same reshape of the points. -/
theorem rows_agree (x : Cert.KernelIdeal.S4x20000x1x64.Idx → EReal) :
    Cert.ReferenceIdeal.Read.val_main_v0 (F := Ideal) x = Cert.KernelIdeal.HostSide.rows x := rfl

/-- The reference's gathered rows are the kernel program's: the same gather of the same rows at the same start
    indices. -/
theorem gathered_agree (x : Cert.KernelIdeal.S4x20000x1x64.Idx → EReal) (ix : Cert.KernelIdeal.S4x20000x16.Idx → BitVec 32) :
    Cert.ReferenceIdeal.Read.val_main_v7 (F := Ideal) x ix = Cert.KernelIdeal.HostSide.gathered x ix := rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The kernel program ends at the reshaped layer of its arguments; the reference at its last reshape of its
    reduction, which is the layer of its arguments; the arguments agree. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v24_eq]
  unfold Cert.ReferenceIdeal.Read.val_main_v24
  rw [Cert.ReferenceIdeal.Layer.pooled_eq, e0, e1, e2, e3, e4, e5, rows_agree, gathered_agree]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
